-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x64 : Shape := ⟨2, ![128, 64]⟩
abbrev S64x32 : Shape := ⟨2, ![64, 32]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_

variable [Facts]

def fn_part1 {F : FTy → Type} [FloatOps F] (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  main_v18

def fn {F : FTy → Type} [FloatOps F] (main_arg0 : FVec F S10000x10000 .f32) (main_arg1 : FVec F S10000x128 .f32) (main_arg2 : FVec F S128x64 .f32) (main_arg3 : FVec F S64x32 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_v13 main_v16
-- ==== Kernel.lean ====
abbrev S10000x10000 : Shape := ⟨2, ![10000, 10000]⟩
abbrev S10000x128 : Shape := ⟨2, ![10000, 128]⟩
abbrev S128x64 : Shape := ⟨2, ![128, 64]⟩
abbrev S64x32 : Shape := ⟨2, ![64, 32]⟩
abbrev S10000x64 : Shape := ⟨2, ![10000, 64]⟩
abbrev S_ : Shape := ⟨0, ![]⟩
abbrev S10000x32 : Shape := ⟨2, ![10000, 32]⟩
abbrev S10000 : Shape := ⟨1, ![10000]⟩
abbrev S10000x1 : Shape := ⟨2, ![10000, 1]⟩
abbrev S1x10000 : Shape := ⟨2, ![1, 10000]⟩
abbrev S200x10000 : Shape := ⟨2, ![200, 10000]⟩
abbrev S200x1 : Shape := ⟨2, ![200, 1]⟩
abbrev S200 : Shape := ⟨1, ![200]⟩

abbrev nBuf : Space → Nat
  | .hbm => 18
  | .vmem => 7
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x64, .f32⟩
  | .hbm, ⟨3, _⟩ => ⟨S64x32, .f32⟩
  | .hbm, ⟨4, _⟩ => ⟨S10000x64, .f32⟩
  | .hbm, ⟨5, _⟩ => ⟨S10000x64, .f32⟩
  | .hbm, ⟨6, _⟩ => ⟨S_, .f32⟩
  | .hbm, ⟨7, _⟩ => ⟨S10000x64, .f32⟩
  | .hbm, ⟨8, _⟩ => ⟨S10000x64, .f32⟩
  | .hbm, ⟨9, _⟩ => ⟨S10000x32, .f32⟩
  | .hbm, ⟨10, _⟩ => ⟨S10000x32, .f32⟩
  | .hbm, ⟨11, _⟩ => ⟨S10000x32, .f32⟩
  | .hbm, ⟨12, _⟩ => ⟨S_, .f32⟩
  | .hbm, ⟨13, _⟩ => ⟨S10000, .f32⟩
  | .hbm, ⟨14, _⟩ => ⟨S10000x10000, .f32⟩
  | .hbm, ⟨15, _⟩ => ⟨S10000x1, .f32⟩
  | .hbm, ⟨16, _⟩ => ⟨S1x10000, .f32⟩
  | .hbm, ⟨17, _⟩ => ⟨S10000x10000, .f32⟩
  | .local _ .vmem, ⟨0, _⟩ => ⟨S200x10000, .f32⟩
  | .local _ .vmem, ⟨1, _⟩ => ⟨S200x10000, .f32⟩
  | .local _ .vmem, ⟨2, _⟩ => ⟨S200x1, .f32⟩
  | .local _ .vmem, ⟨3, _⟩ => ⟨S200x1, .f32⟩
  | .local _ .vmem, ⟨4, _⟩ => ⟨S1x10000, .f32⟩
  | .local _ .vmem, ⟨5, _⟩ => ⟨S200x10000, .f32⟩
  | .local _ .vmem, ⟨6, _⟩ => ⟨S200x10000, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x10000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S10000x64 : S_.BroadcastsInDim S10000x64 (![] : Fin 0 → Fin S10000x64.rank)
  reducesTo_S10000x32_S10000_d1 : S10000x32.ReducesTo [1] S10000
  h_S_ : 0 < S_.numel
  bcast_S10000_S10000x1_0 : S10000.BroadcastsInDim S10000x1 (![0] : Fin 1 → Fin S10000x1.rank)
  bcast_S10000_S1x10000_1 : S10000.BroadcastsInDim S1x10000 (![1] : Fin 1 → Fin S1x10000.rank)
  inb_S200x1_S200x1_0_0 : ∀ a, (![0, 0] : Fin 2 → Nat) a + S200x1.size a ≤ S200x1.size a
  h_S200x1 : 0 < S200x1.numel
  shapeCasts_S200x1_S200x1 : S200x1.ShapeCasts S200x1
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  broadcasts_S200x1_S200x10000 : S200x1.Broadcasts S200x10000
  broadcasts_S1x10000_S200x10000 : S1x10000.Broadcasts S200x10000
  inb_S200x10000_S200x10000_0_0 : ∀ a, (![0, 0] : Fin 2 → Nat) a + S200x10000.size a ≤ S200x10000.size a
  h_S200x10000 : 0 < S200x10000.numel
  shapeCasts_S200x10000_S200x10000 : S200x10000.ShapeCasts S200x10000
  reduces_S200x10000_S200 : S200x10000.Reduces [1] S200
  shapeCasts_S200_S200x1 : S200.ShapeCasts S200x1
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []
  dot_S10000x10000_S10000x32_S10000x32_1_0_0_1_n_n_wf : DotDims.WF S10000x10000 S10000x32 S10000x32 [1] [0] [0] [1] [] []
  dot_S10000x32_S10000x32_S10000x10000_1_1_0_0_n_n_wf : DotDims.WF S10000x32 S10000x32 S10000x10000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x1.size a ≤ S10000x1.size a
  hwx0_1 : ∀ i : grid0.Coords, EltTy.bits .f32 = 32 ∨ (Rect.block (s := S10000x1) S200x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10000.size a ≤ S1x10000.size a
  hwx0_2 : ∀ i : grid0.Coords, EltTy.bits .f32 = 32 ∨ (Rect.block (s := S1x10000) S1x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S10000x32_S10000x10000_1_1_0_0_n_n : DotDims S10000x32 S10000x32 S10000x10000 where
  lhsContracting := [1]
  rhsContracting := [1]
  lhsNonContracting := [0]
  rhsNonContracting := [0]
  lhsBatch := []
  rhsBatch := []
  wf := dot_S10000x32_S10000x32_S10000x10000_1_1_0_0_n_n_wf

abbrev win0_0 : Pipeline.Window sig grid0 :=
  Pipeline.Window.ofSpec (Memref.whole main_v7) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S200x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x10000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S200x10000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x64 : Shape := ⟨2, ![128, 64]⟩
abbrev S64x32 : Shape := ⟨2, ![64, 32]⟩
abbrev S10000x64 : Shape := ⟨2, ![10000, 64]⟩
abbrev S_ : Shape := ⟨0, ![]⟩
abbrev S10000x32 : Shape := ⟨2, ![10000, 32]⟩
abbrev S10000 : Shape := ⟨1, ![10000]⟩
abbrev S10000x1 : Shape := ⟨2, ![10000, 1]⟩
abbrev S1x10000 : Shape := ⟨2, ![1, 10000]⟩
abbrev S32x10000 : Shape := ⟨2, ![32, 10000]⟩

abbrev nBuf : Space → Nat
  | .hbm => 46
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x64, .f32⟩
  | .hbm, ⟨3, _⟩ => ⟨S64x32, .f32⟩
  | .hbm, ⟨4, _⟩ => ⟨S10000x64, .f32⟩
  | .hbm, ⟨5, _⟩ => ⟨S10000x64, .f32⟩
  | .hbm, ⟨6, _⟩ => ⟨S_, .f32⟩
  | .hbm, ⟨7, _⟩ => ⟨S10000x64, .f32⟩
  | .hbm, ⟨8, _⟩ => ⟨S10000x64, .f32⟩
  | .hbm, ⟨9, _⟩ => ⟨S10000x32, .f32⟩
  | .hbm, ⟨10, _⟩ => ⟨S10000x32, .f32⟩
  | .hbm, ⟨11, _⟩ => ⟨S10000x32, .f32⟩
  | .hbm, ⟨12, _⟩ => ⟨S_, .f32⟩
  | .hbm, ⟨13, _⟩ => ⟨S10000, .f32⟩
  | .hbm, ⟨14, _⟩ => ⟨S10000x1, .f32⟩
  | .hbm, ⟨15, _⟩ => ⟨S1x10000, .f32⟩
  | .hbm, ⟨16, _⟩ => ⟨S10000x10000, .f32⟩
  | .hbm, ⟨17, _⟩ => ⟨S10000x10000, .f32⟩
  | .hbm, ⟨18, _⟩ => ⟨S10000x10000, .f32⟩
  | .hbm, ⟨19, _⟩ => ⟨S32x10000, .f32⟩
  | .hbm, ⟨20, _⟩ => ⟨S10000x10000, .f32⟩
  | .hbm, ⟨21, _⟩ => ⟨S_, .f32⟩
  | .hbm, ⟨22, _⟩ => ⟨S10000x10000, .f32⟩
  | .hbm, ⟨23, _⟩ => ⟨S10000x10000, .f32⟩
  | .hbm, ⟨24, _⟩ => ⟨S10000x10000, .f32⟩
  | .hbm, ⟨25, _⟩ => ⟨S_, .f32⟩
  | .hbm, ⟨26, _⟩ => ⟨S10000x10000, .f32⟩
  | .hbm, ⟨27, _⟩ => ⟨S10000x10000, .f32⟩
  | .hbm, ⟨28, _⟩ => ⟨S10000x10000, .f32⟩
  | .hbm, ⟨29, _⟩ => ⟨S_, .f32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x10000, .f32⟩
  | .hbm, ⟨36, _⟩ => ⟨S10000x10000, .f32⟩
  | .hbm, ⟨37, _⟩ => ⟨S10000x10000, .f32⟩
  | .hbm, ⟨38, _⟩ => ⟨S_, .f32⟩
  | .hbm, ⟨39, _⟩ => ⟨S10000, .f32⟩
  | .hbm, ⟨40, _⟩ => ⟨S10000x1, .f32⟩
  | .hbm, ⟨41, _⟩ => ⟨S10000x10000, .f32⟩
  | .hbm, ⟨42, _⟩ => ⟨S10000x10000, .f32⟩
  | .hbm, ⟨43, _⟩ => ⟨S_, .f32⟩
  | .hbm, ⟨44, _⟩ => ⟨S10000x10000, .f32⟩
  | .hbm, ⟨45, _⟩ => ⟨S10000x10000, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call1_cst : Ref sig .tc := ⟨.hbm, 25, rfl⟩
abbrev main_call1_v0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  bcast_S_S10000x64 : S_.BroadcastsInDim S10000x64 (![] : Fin 0 → Fin S10000x64.rank)
  reducesTo_S10000x32_S10000_d1 : S10000x32.ReducesTo [1] S10000
  h_S_ : 0 < S_.numel
  bcast_S10000_S10000x1_0 : S10000.BroadcastsInDim S10000x1 (![0] : Fin 1 → Fin S10000x1.rank)
  bcast_S10000_S1x10000_1 : S10000.BroadcastsInDim S1x10000 (![1] : Fin 1 → Fin S1x10000.rank)
  bcast_S10000x1_S10000x10000_0_1 : S10000x1.BroadcastsInDim S10000x10000 (![0, 1] : Fin 2 → Fin S10000x10000.rank)
  bcast_S1x10000_S10000x10000_0_1 : S1x10000.BroadcastsInDim S10000x10000 (![0, 1] : Fin 2 → Fin S10000x10000.rank)
  transposes_S10000x32_S32x10000_1_0 : S10000x32.Transposes [1, 0] S32x10000
  bcast_S_S10000x10000 : S_.BroadcastsInDim S10000x10000 (![] : Fin 0 → Fin S10000x10000.rank)
  reducesTo_S10000x10000_S10000_d1 : S10000x10000.ReducesTo [1] S10000
  bcast_S_S10000 : S_.BroadcastsInDim S10000 (![] : Fin 0 → Fin S10000.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []
  dot_S10000x10000_S10000x32_S10000x32_1_0_0_1_n_n_wf : DotDims.WF S10000x10000 S10000x32 S10000x32 [1] [0] [0] [1] [] []
  dot_S10000x32_S32x10000_S10000x10000_1_0_0_1_n_n_wf : DotDims.WF S10000x32 S32x10000 S10000x10000 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x10000_S10000x10000_1_0_0_1_n_n : DotDims S10000x32 S32x10000 S10000x10000 where
  lhsContracting := [1]
  rhsContracting := [0]
  lhsNonContracting := [0]
  rhsNonContracting := [1]
  lhsBatch := []
  rhsBatch := []
  wf := dot_S10000x32_S32x10000_S10000x10000_1_0_0_1_n_n_wf

class Facts : Prop extends Facts₀ where

variable [Facts]
-- ==== Proof.Softmin.lean ====
/-
  The mathematics shared by the two programs, stated once over the extended reals.

  Both programs end with a 10000 × 10000 array whose row `r` is a "softmin" of the row of relu'd squared
  distances `d r k = max (sq r + sq k - 2 · ⟨e r, e k⟩) 0`:

      out r j = exp (μ r - d r j) / (∑ k, exp (μ r - d r k)) + 1e-10,        μ r = min over k of d r k.

  The kernel computes it in exactly this form (a running minimum from +∞). The reference computes
  `softmax (-d)`, which subtracts the running maximum `M r` of the NEGATED row (from -∞):
  `exp (-d r j - M r)`. Negation is an order-reversing involution of the extended reals, so
  `M r = -μ r` for every row whatever its entries (`fold_max_neg`), and `-x - -μ = μ - x` holds for all
  extended reals because subtraction is addition of the negative and addition commutes (`neg_sub_neg_ereal`):
  no finiteness of the entries is used anywhere.
-/
import Idealize.ShloMosaic.PureOps.Ideal
import Idealize.ShloMosaic.PureOps.Ideal.Laws
import Idealize.ShloMosaic.Lib.ValueIdx
import Mathlib.Data.Finset.Fold
import Mathlib.Data.EReal.Operations

noncomputable section

namespace Cert.Softmin

open Idealize.ShloMosaic Idealize.ShloMosaic.ValueIdx

/-! ## Two facts about the extended reals -/

/-- The running maximum (from `⊥`) of a negated family is the negated running minimum (from `⊤`) of the
    family: `x ↦ -x` is antitone, so it carries `min` to `max`, and `-⊤ = ⊥`. -/
theorem fold_max_neg {ι : Type} (s : Finset ι) (d : ι → EReal) :
    s.fold max ⊥ (fun k => -d k) = -(s.fold min ⊤ d) := by
  have h := Finset.fold_hom (op := (min : EReal → EReal → EReal)) (op' := (max : EReal → EReal → EReal))
    (m := (Neg.neg : EReal → EReal)) (s := s) (b := (⊤ : EReal)) (f := d)
    (fun x y => EReal.neg_strictAnti.antitone.map_min)
  rw [EReal.neg_top] at h
  exact h

/-- Shifting a negated entry by the negated minimum is shifting the minimum by the entry. -/
theorem neg_sub_neg_ereal (μ x : EReal) : -x - -μ = μ - x := by
  rw [sub_eq_add_neg, neg_neg, sub_eq_add_neg, add_comm]

/-! ## The three float patterns the two programs start their reductions from -/

theorem ofBits_posInf : Ideal.ofBits .f32 0x7F800000#32 = ⊤ := by simp [Ideal.ofBits, Ideal.ieee]
theorem ofBits_negInf : Ideal.ofBits .f32 0xFF800000#32 = ⊥ := by simp [Ideal.ofBits, Ideal.ieee]

/-! ## One row -/

/-- Row `d` as the kernel leaves it: each entry's distance to the row's minimum, exponentiated, over the
    row's sum of those, plus the constant `c`. -/
def row {n : Nat} (c : EReal) (d : Fin n → EReal) (j : Fin n) : EReal :=
  Ideal.div (Ideal.exp (Finset.univ.fold min ⊤ d - d j)) (∑ k : Fin n, Ideal.exp (Finset.univ.fold min ⊤ d - d k)) + c

/-- The reference's spelling of the same row: the negated row shifted by its maximum — the maximum
    taken once more against `-∞`, the sum started from `0` —, is `row`. -/
theorem row_of_neg_max {n : Nat} (c : EReal) (d : Fin n → EReal) (j : Fin n) :
    Ideal.div (Ideal.exp (-d j - max ⊥ (Finset.univ.fold max ⊥ fun k => -d k)))
        (0 + ∑ k : Fin n, Ideal.exp (-d k - max ⊥ (Finset.univ.fold max ⊥ fun k => -d k))) + c
      = row c d j := by
  unfold row
  rw [fold_max_neg, max_eq_right bot_le, zero_add]
  simp only [neg_sub_neg_ereal]

/-! ## The whole array -/

/-- The relu'd squared distance between rows `r` and `k`, from the Gram matrix `T` and the squared norms as
    a column `C` and as a row `R`. -/
def dist (T : (⟨2, ![10000, 10000]⟩ : Shape).Idx → EReal) (C : (⟨2, ![10000, 1]⟩ : Shape).Idx → EReal)
    (R : (⟨2, ![1, 10000]⟩ : Shape).Idx → EReal) (r k : Fin 10000) : EReal :=
  max ((C (ix2 r 0) + R (ix2 0 k)) - Ideal.ofBits .f32 0x40000000#32 * T (ix2 r k)) (Ideal.ofBits .f32 0x00000000#32)

/-- What both programs compute from `T`, `C` and `R`: row `i 0` of the softmin, read at column `i 1`. -/
def G (T : (⟨2, ![10000, 10000]⟩ : Shape).Idx → EReal) (C : (⟨2, ![10000, 1]⟩ : Shape).Idx → EReal)
    (R : (⟨2, ![1, 10000]⟩ : Shape).Idx → EReal) : (⟨2, ![10000, 10000]⟩ : Shape).Idx → EReal :=
  fun i => row (Ideal.ofBits .f32 0x2EDBE6FF#32) (dist T C R (i 0)) (i 1)

end Cert.Softmin

end
-- ==== Proof.KernelPayload.lean ====
/-
  The kernel body's stored value, read at an index of its 200 × 10000 block.

  From a 200 × 1 block `P0` of squared norms (a column), the 1 × 10000 row `P1` of squared norms and a
  200 × 10000 block `P2` of the Gram matrix the body forms `d r k = max ((P0 r + P1 k) - 2 · P2 r k) 0`, takes
  each row's minimum from `+∞` over the 10000 lanes, exponentiates `min - d`, sums each row from `0`, divides
  and adds the constant. The two lane reductions are read here as a fold and a sum over the lane
  coordinate `k : Fin 10000`, so that entry `(r, q)` of the stored value is `Cert.Softmin.row` of the row
  `k ↦ d r k`, read at `q`.
-/
import proofs.«107648_g1030792151698_week1_w1_993_11_alg».proof.Proof.Gen.KernelIdeal.Skeleton
import proofs.«107648_g1030792151698_week1_w1_993_11_alg».proof.Proof.Softmin
import Idealize.ShloMosaic.PureOps.Reduce
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.TcCoe Idealize.SL.Sem
  Idealize.ShloMosaic.ValueIdx Cert.Softmin

/-! ## The layout operations of the body, read at `(r, q)` -/

/-- A length-200 vector, cast to a column and broadcast along the lanes, reads its entry `r` at `(r, q)`. -/
theorem col_of_vec (v : FVec Ideal S200 .f32) (r : Fin 200) (q : Fin 10000) :
    broadcastTo S200x10000 (shapeCast S200x1 v shapeCasts_S200_S200x1) broadcasts_S200x1_S200x10000 (ix2 r q) = v (ix1 r) := by
  refine (broadcastTo_apply _ _ (ix2 r q) (ix2 r 0) (fun a => match a with
    | ⟨0, _⟩ => by show r.val = (if (200 : Nat) = 1 then 0 else r.val); rw [if_neg (by decide)]
    | ⟨1, _⟩ => by show 0 = (if (1 : Nat) = 1 then 0 else q.val); rw [if_pos rfl])).trans ?_
  exact shapeCast_apply _ _ (ix2 r 0) (ix1 r)
    (by rw [Shape.rowMajor_val_one, Shape.rowMajor_val_two]; show r.val = r.val * 1 + 0; omega)

/-- The column block broadcast along the lanes reads its row `r`. -/
theorem col_block (P0 : Vec Ideal S200x1 .f32) (r : Fin 200) (q : Fin 10000) :
    broadcastTo S200x10000 (shapeCast S200x1 P0 shapeCasts_S200x1_S200x1) broadcasts_S200x1_S200x10000 (ix2 r q) = P0 (ix2 r 0) := by
  refine (broadcastTo_apply _ _ (ix2 r q) (ix2 r 0) (fun a => match a with
    | ⟨0, _⟩ => by show r.val = (if (200 : Nat) = 1 then 0 else r.val); rw [if_neg (by decide)]
    | ⟨1, _⟩ => by show 0 = (if (1 : Nat) = 1 then 0 else q.val); rw [if_pos rfl])).trans ?_
  exact shapeCast_apply _ _ (ix2 r 0) (ix2 r 0) rfl

/-- The row block broadcast down the rows reads its lane `q`. -/
theorem row_block (P1 : Vec Ideal S1x10000 .f32) (r : Fin 200) (q : Fin 10000) :
    broadcastTo S200x10000 (shapeCast S1x10000 P1 shapeCasts_S1x10000_S1x10000) broadcasts_S1x10000_S200x10000 (ix2 r q) = P1 (ix2 0 q) := by
  refine (broadcastTo_apply _ _ (ix2 r q) (ix2 0 q) (fun a => match a with
    | ⟨0, _⟩ => by show 0 = (if (1 : Nat) = 1 then 0 else r.val); rw [if_pos rfl]
    | ⟨1, _⟩ => by show q.val = (if (10000 : Nat) = 1 then 0 else q.val); rw [if_neg (by decide)])).trans ?_
  exact shapeCast_apply _ _ (ix2 0 q) (ix2 0 q) rfl

/-- The Gram block's shape cast to its own shape is the block. -/
theorem gram_block (P2 : Vec Ideal S200x10000 .f32) (r : Fin 200) (q : Fin 10000) :
    shapeCast S200x10000 P2 shapeCasts_S200x10000_S200x10000 (ix2 r q) = P2 (ix2 r q) :=
  shapeCast_apply _ _ (ix2 r q) (ix2 r q) rfl

/-! ## The body's intermediate vectors -/

/-- The block of relu'd squared distances (the body's `%13`). -/
def dvec (P0 : Vec Ideal S200x1 .f32) (P1 : Vec Ideal S1x10000 .f32) (P2 : Vec Ideal S200x10000 .f32) : FVec Ideal S200x10000 .f32 :=
  maximumf (subf (addf (broadcastTo S200x10000 (shapeCast S200x1 P0 shapeCasts_S200x1_S200x1) broadcasts_S200x1_S200x10000) (broadcastTo S200x10000 (shapeCast S1x10000 P1 shapeCasts_S1x10000_S1x10000) broadcasts_S1x10000_S200x10000)) (mulf (broadcast S200x10000 (Scalar.ofBits .f32 0x40000000#32)) (shapeCast S200x10000 P2 shapeCasts_S200x10000_S200x10000))) (broadcast S200x10000 (Scalar.ofBits .f32 0x00000000#32))

/-- Each row's minimum over the lanes, from `+∞` (`%14`). -/
def minvec (D : FVec Ideal S200x10000 .f32) : FVec Ideal S200 .f32 :=
  multiReduction .minimumf [1] S200 D 0x7F800000#32 reduces_S200x10000_S200 (.inl rfl) rfl

/-- The exponentials of the distances to the row minima (`%18`). -/
def evec (D : FVec Ideal S200x10000 .f32) : FVec Ideal S200x10000 .f32 :=
  exp (subf (broadcastTo S200x10000 (shapeCast S200x1 (minvec D) shapeCasts_S200_S200x1) broadcasts_S200x1_S200x10000) D)

/-- Each row's sum over the lanes, from `0` (`%19`). -/
def sumvec (E : FVec Ideal S200x10000 .f32) : FVec Ideal S200 .f32 :=
  multiReduction .add [1] S200 E 0x00000000#32 reduces_S200x10000_S200 (.inl rfl) rfl

/-- The stored value is the quotient of `evec` by its row sums, plus the constant. -/
theorem pay_eq (P0 : Vec Ideal S200x1 .f32) (P1 : Vec Ideal S1x10000 .f32) (P2 : Vec Ideal S200x10000 .f32) :
    k0_pay1 P0 P1 P2 = addf (divf (evec (dvec P0 P1 P2)) (broadcastTo S200x10000 (shapeCast S200x1 (sumvec (evec (dvec P0 P1 P2))) shapeCasts_S200_S200x1) broadcasts_S200x1_S200x10000)) (broadcast S200x10000 (Scalar.ofBits .f32 0x2EDBE6FF#32)) := rfl

/-! ## Read at an index -/

/-- The relu'd squared distance of row `r` of the block to lane `k`. -/
def dEntry (P0 : Vec Ideal S200x1 .f32) (P1 : Vec Ideal S1x10000 .f32) (P2 : Vec Ideal S200x10000 .f32) (r : Fin 200) (k : Fin 10000) : EReal :=
  max ((P0 (ix2 r 0) + P1 (ix2 0 k)) - Ideal.ofBits .f32 0x40000000#32 * P2 (ix2 r k)) (Ideal.ofBits .f32 0x00000000#32)

theorem dvec_apply (P0 : Vec Ideal S200x1 .f32) (P1 : Vec Ideal S1x10000 .f32) (P2 : Vec Ideal S200x10000 .f32) (r : Fin 200) (q : Fin 10000) :
    dvec P0 P1 P2 (ix2 r q) = dEntry P0 P1 P2 r q := by
  unfold dvec dEntry
  rw [maximumf_apply, subf_apply, addf_apply, mulf_apply, col_block, row_block, gram_block]
  rfl

/-- The lane coordinate `k` inserted into row index `r` is the block index `(r, k)`. -/
theorem lift_blk (h : S200x10000.Reduces [1] S200) (r : Fin 200) (k : Fin 10000) : h.lift (ix1 r) k = ix2 r k :=
  funext fun a => Fin.ext (by match a with | ⟨0, _⟩ => rfl | ⟨1, _⟩ => rfl)

/-- The exponential of a vector at an index is the exponential of the entry. -/
theorem vexp_apply {s : Shape} (a : FVec Ideal s .f32) (i : s.Idx) : exp a i = Ideal.exp (a i) := rfl

/-- A row's minimum is the fold of `min` from `⊤` over the lanes. -/
theorem minvec_apply (D : FVec Ideal S200x10000 .f32) (r : Fin 200) :
    minvec D (ix1 r) = Finset.univ.fold min ⊤ (fun k : Fin 10000 => D (ix2 r k)) := by
  have hsrc : (D ∘ reduces_S200x10000_S200.lift (ix1 r)) = fun k : Fin 10000 => D (ix2 r k) :=
    funext fun k => congrArg D (lift_blk reduces_S200x10000_S200 r k)
  unfold minvec
  refine (multiReduction_minimumf_eq_fold D 0x7F800000#32 reduces_S200x10000_S200 (.inl rfl) rfl (ix1 r)).trans ?_
  refine (reduces_S200x10000_S200.fold_filter_drop_single FloatOps.minimumf (FloatOps.ofBits .f32 0x7F800000#32) D (ix1 r)).trans ?_
  refine (congrArg (fun f => Finset.fold (FloatOps.minimumf (F := Ideal) (φ := .f32)) (FloatOps.ofBits .f32 0x7F800000#32) f Finset.univ) hsrc).trans ?_
  exact congrArg (fun b => Finset.fold min b (fun k : Fin 10000 => D (ix2 r k)) Finset.univ) ofBits_posInf

/-- A row's sum is the sum over the lanes. -/
theorem sumvec_apply (E : FVec Ideal S200x10000 .f32) (r : Fin 200) :
    sumvec E (ix1 r) = ∑ k : Fin 10000, E (ix2 r k) := by
  unfold sumvec
  refine (Ideal.multiReduction_add_single E 0x00000000#32 reduces_S200x10000_S200 (.inl rfl) rfl (ix1 r)).trans ?_
  exact Finset.sum_congr rfl fun k _ => congrArg E (lift_blk reduces_S200x10000_S200 r k)

theorem evec_apply (D : FVec Ideal S200x10000 .f32) (r : Fin 200) (q : Fin 10000) :
    evec D (ix2 r q) = Ideal.exp (Finset.univ.fold min ⊤ (fun k : Fin 10000 => D (ix2 r k)) - D (ix2 r q)) := by
  unfold evec
  rw [vexp_apply, subf_apply, col_of_vec, minvec_apply]

/-- ENTRY `(r, q)` OF THE STORED VALUE is the softmin row of the block's distances `k ↦ d r k`, read at `q`. -/
theorem pay_apply (P0 : Vec Ideal S200x1 .f32) (P1 : Vec Ideal S1x10000 .f32) (P2 : Vec Ideal S200x10000 .f32) (r : Fin 200) (q : Fin 10000) :
    k0_pay1 P0 P1 P2 (ix2 r q) = row (Ideal.ofBits .f32 0x2EDBE6FF#32) (dEntry P0 P1 P2 r) q := by
  rw [pay_eq, addf_apply, divf_apply, broadcast_apply, col_of_vec, sumvec_apply, evec_apply]
  simp only [evec_apply, dvec_apply]
  unfold row
  rfl

end Cert.KernelIdeal.Payload

end
-- ==== Proof.KernelValue.lean ====
/-
  The kernel's result array as ONE function of the argument arrays.

  The pallas_call walks 50 row blocks of 200 rows. At point `t` its windows hold: rows `200 t … 200 t + 199` of
  the Gram matrix (window 0), the same rows of the squared norms as a column (window 1), the whole row of
  squared norms (window 2); it writes rows `200 t … 200 t + 199` of the result (window 3). The stored value at
  block index `(r, q)` is the softmin row of the distances of array row `200 t + r` (`Payload.pay_apply`),
  read at `q`: exactly `Cert.Softmin.G` of the three arrays at the array index `(200 t + r, q)`. The 50 blocks
  tile the 10000 rows, so the result array IS `G` of the three arrays.

  The three arrays are written by @main before the call: the Gram matrix `E · Eᵀ` as one contraction of
  `E` with itself over axis 1 of both, the squared norms `∑ E²` broadcast to a column and to a row, with
  `E = A · (relu (A · (X · W1)) · W2)`.
-/
import proofs.«107648_g1030792151698_week1_w1_993_11_alg».proof.Proof.KernelBlocks
import proofs.«107648_g1030792151698_week1_w1_993_11_alg».proof.Proof.KernelPayload
import Idealize.ShloMosaic.Lib.StableHlo.Run

noncomputable section

namespace Cert.KernelIdeal.KValue

open Cert.KernelIdeal Cert.KernelIdeal.Gen Cert.KernelIdeal.ValueP Cert.KernelIdeal.Payload Idealize.ShloMosaic
  Idealize.ShloMosaic.TcCoe Idealize.SL.Sem Idealize.ShloMosaic.ValueIdx Idealize.ShloMosaic.StableHlo Cert.Softmin
open Idealize.ShloMosaic.Pipeline (Dat)

/-! ## The Gram entry as a sum over the 32 embedding coordinates -/

theorem lhs_gram_0 (i : S10000x10000.Idx) (q : dot_S10000x32_S10000x32_S10000x10000_1_1_0_0_n_n.contr.Idx) :
    (dot_S10000x32_S10000x32_S10000x10000_1_1_0_0_n_n.lhsIdx i q 0).val = (i 0).val := by
  unfold DotDims.lhsIdx
  rw [dif_neg (show ¬(0 : Fin S10000x32.rank) ∈ dot_S10000x32_S10000x32_S10000x10000_1_1_0_0_n_n.lhsBatch by decide), dif_pos (show (0 : Fin S10000x32.rank) ∈ dot_S10000x32_S10000x32_S10000x10000_1_1_0_0_n_n.lhsNonContracting by decide)]
  rfl
theorem lhs_gram_1 (i : S10000x10000.Idx) (q : dot_S10000x32_S10000x32_S10000x10000_1_1_0_0_n_n.contr.Idx) :
    (dot_S10000x32_S10000x32_S10000x10000_1_1_0_0_n_n.lhsIdx i q 1).val = (q ⟨0, by decide⟩).val :=
  dot_S10000x32_S10000x32_S10000x10000_1_1_0_0_n_n.lhsIdx_val_of_single rfl i q
theorem rhs_gram_0 (i : S10000x10000.Idx) (q : dot_S10000x32_S10000x32_S10000x10000_1_1_0_0_n_n.contr.Idx) :
    (dot_S10000x32_S10000x32_S10000x10000_1_1_0_0_n_n.rhsIdx i q 0).val = (i 1).val := by
  unfold DotDims.rhsIdx
  rw [dif_neg (show ¬(0 : Fin S10000x32.rank) ∈ dot_S10000x32_S10000x32_S10000x10000_1_1_0_0_n_n.rhsBatch by decide), dif_pos (show (0 : Fin S10000x32.rank) ∈ dot_S10000x32_S10000x32_S10000x10000_1_1_0_0_n_n.rhsNonContracting by decide)]
  rfl
theorem rhs_gram_1 (i : S10000x10000.Idx) (q : dot_S10000x32_S10000x32_S10000x10000_1_1_0_0_n_n.contr.Idx) :
    (dot_S10000x32_S10000x32_S10000x10000_1_1_0_0_n_n.rhsIdx i q 1).val = (q ⟨0, by decide⟩).val :=
  dot_S10000x32_S10000x32_S10000x10000_1_1_0_0_n_n.rhsIdx_val_of_single rfl i q

/-- Contracting `E` with itself over the embedding axis: entry `(a, b)` is `∑ k, E a k · E b k`. -/
theorem gram_apply (E : FVec Ideal S10000x32 .f32) (i : S10000x10000.Idx) :
    Host.dotGeneral dot_S10000x32_S10000x32_S10000x10000_1_1_0_0_n_n none E E i = ∑ k : Fin 32, E (ix2 (i 0) k) * E (ix2 (i 1) k) := by
  simp only [Host.dotGeneral]
  rw [Ideal.dotGeneral_apply, ← Equiv.sum_comp (ValueIdx.contrEquiv1 dot_S10000x32_S10000x32_S10000x10000_1_1_0_0_n_n 32 rfl rfl).symm]
  refine Finset.sum_congr rfl fun k _ => ?_
  have hk := ValueIdx.contrEquiv1_symm_val dot_S10000x32_S10000x32_S10000x10000_1_1_0_0_n_n 32 rfl rfl k
  have el : dot_S10000x32_S10000x32_S10000x10000_1_1_0_0_n_n.lhsIdx i ((ValueIdx.contrEquiv1 dot_S10000x32_S10000x32_S10000x10000_1_1_0_0_n_n 32 rfl rfl).symm k) = ix2 (i 0) k := funext fun a => Fin.ext (by
    match a with
    | ⟨0, _⟩ => exact lhs_gram_0 _ _
    | ⟨1, _⟩ => exact (lhs_gram_1 _ _).trans hk)
  have er : dot_S10000x32_S10000x32_S10000x10000_1_1_0_0_n_n.rhsIdx i ((ValueIdx.contrEquiv1 dot_S10000x32_S10000x32_S10000x10000_1_1_0_0_n_n 32 rfl rfl).symm k) = ix2 (i 1) k := funext fun a => Fin.ext (by
    match a with
    | ⟨0, _⟩ => exact rhs_gram_0 _ _
    | ⟨1, _⟩ => exact (rhs_gram_1 _ _).trans hk)
  rw [el, er]
  rfl

/-! ## What @main writes before the call, as terms of the four arguments -/

section HostTerms

variable (x0 : FVec Ideal S10000x10000 .f32) (x1 : FVec Ideal S10000x128 .f32) (x2 : FVec Ideal S128x64 .f32) (x3 : FVec Ideal S64x32 .f32)

/-- The embedding `E = A · (relu (A · (X · W1)) · W2)`. -/
def emb : FVec Ideal S10000x32 .f32 :=
  Host.dotGeneral dot_S10000x10000_S10000x32_S10000x32_1_0_0_1_n_n none x0
    (Host.dotGeneral dot_S10000x64_S64x32_S10000x32_1_0_0_1_n_n none
      (maximumf (Host.dotGeneral dot_S10000x10000_S10000x64_S10000x64_1_0_0_1_n_n none x0
          (Host.dotGeneral dot_S10000x128_S128x64_S10000x64_1_0_0_1_n_n none x1 x2))
        (broadcastInDim S10000x64 ![] bcast_S_S10000x64 (constant (F := Ideal) S_ .f32 0x00000000#32)))
      x3)

/-- The squared row norms `∑ E²`. -/
def sqn : FVec Ideal S10000 .f32 :=
  Host.reduceAdd (mulf (emb x0 x1 x2 x3) (emb x0 x1 x2 x3)) (constant (F := Ideal) S_ .f32 0x00000000#32) reducesTo_S10000x32_S10000_d1 h_S_

/-- The Gram matrix `E · Eᵀ`, as the one contraction the kernel's @main makes. -/
def gramK : FVec Ideal S10000x10000 .f32 :=
  Host.dotGeneral dot_S10000x32_S10000x32_S10000x10000_1_1_0_0_n_n none (emb x0 x1 x2 x3) (emb x0 x1 x2 x3)

/-- The squared norms as a column. -/
def colK : FVec Ideal S10000x1 .f32 :=
  broadcastInDim S10000x1 ![0] bcast_S10000_S10000x1_0 (sqn x0 x1 x2 x3)

/-- The squared norms as a row. -/
def rowK : FVec Ideal S1x10000 .f32 :=
  broadcastInDim S1x10000 ![1] bcast_S10000_S1x10000_1 (sqn x0 x1 x2 x3)

end HostTerms

variable (m : (ℓ : Loc nD τ sig) → Buf (Elt Ideal) ℓ) (ρ : Dev nD → PrngReg)

/-- The three window arrays as the region finds them, at their literal types. -/
abbrev gramArr (c : Dev nD) : (⟨2, ![10000, 10000]⟩ : Shape).Idx → EReal := V m c main_v7
abbrev colArr (c : Dev nD) : (⟨2, ![10000, 1]⟩ : Shape).Idx → EReal := V m c main_v8
abbrev rowArr (c : Dev nD) : (⟨2, ![1, 10000]⟩ : Shape).Idx → EReal := V m c main_v9

theorem gramArr_eq (c : Dev nD) : gramArr m c = gramK (m ((c : Thread nD τ).loc main_arg0)) (m ((c : Thread nD τ).loc main_arg1)) (m ((c : Thread nD τ).loc main_arg2)) (m ((c : Thread nD τ).loc main_arg3)) := by
  show V m c main_v7 = _
  dsimp only [V]
  simp only [hostOps0, hostOps0_1, hostOps0_2, List.flatten_cons, List.flatten_nil, List.append_nil, List.cons_append, List.nil_append]
  after_results
  simp only [TRef.ofBuf, TRef.toBuf, cast_eq]
  rfl

theorem colArr_eq (c : Dev nD) : colArr m c = colK (m ((c : Thread nD τ).loc main_arg0)) (m ((c : Thread nD τ).loc main_arg1)) (m ((c : Thread nD τ).loc main_arg2)) (m ((c : Thread nD τ).loc main_arg3)) := by
  show V m c main_v8 = _
  dsimp only [V]
  simp only [hostOps0, hostOps0_1, hostOps0_2, List.flatten_cons, List.flatten_nil, List.append_nil, List.cons_append, List.nil_append]
  after_results
  simp only [TRef.ofBuf, TRef.toBuf, cast_eq]
  rfl

theorem rowArr_eq (c : Dev nD) : rowArr m c = rowK (m ((c : Thread nD τ).loc main_arg0)) (m ((c : Thread nD τ).loc main_arg1)) (m ((c : Thread nD τ).loc main_arg2)) (m ((c : Thread nD τ).loc main_arg3)) := by
  show V m c main_v9 = _
  dsimp only [V]
  simp only [hostOps0, hostOps0_1, hostOps0_2, List.flatten_cons, List.flatten_nil, List.append_nil, List.cons_append, List.nil_append]
  after_results
  simp only [TRef.ofBuf, TRef.toBuf, cast_eq]
  rfl

/-! ## From the blocks to the array -/

theorem hz : (![0, 0] : Fin 2 → Nat) = fun _ => 0 := funext fun a => by fin_cases a <;> rfl

/-- The printed index maps over the 50 points: the Gram and column windows move with the output's row block,
    the row window stays, and every window starts at lane 0. -/
theorem idx_facts : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = 0
    ∧ win0_2.index t (1 : Fin 2) = 0
    ∧ win0_3.index t (1 : Fin 2) = 0
    ∧ win0_3.index t (0 : Fin 2) ≤ 49 :=
  (by decide +kernel : ∀ t : Fin grid0.N, _)

/-- Every one of the 50 row blocks is some point's. -/
theorem idx_onto : ∀ q0 : Fin 50, ∃ t : Fin cfg0.N, win0_3.index t = ![q0.val, 0] :=
  (by decide +kernel : ∀ q0 : Fin 50, ∃ t : Fin grid0.N, win0_3.index t = ![q0.val, 0])

/-- Over variables of the literal types: if the three blocks are the arrays read at array row `ρ0`, the stored
    value at `(r, q)` is `G` of the arrays at `(ρ0, q)`. -/
theorem pay_eq_G (T : (⟨2, ![10000, 10000]⟩ : Shape).Idx → EReal) (C : (⟨2, ![10000, 1]⟩ : Shape).Idx → EReal)
    (R : (⟨2, ![1, 10000]⟩ : Shape).Idx → EReal)
    (P0 : Vec Ideal S200x1 .f32) (P1 : Vec Ideal S1x10000 .f32) (P2 : Vec Ideal S200x10000 .f32)
    (ρ0 : Fin 10000) (r : Fin 200) (q : Fin 10000)
    (h0 : P0 (ix2 r 0) = C (ix2 ρ0 0)) (h1 : ∀ k : Fin 10000, P1 (ix2 0 k) = R (ix2 0 k))
    (h2 : ∀ k : Fin 10000, P2 (ix2 r k) = T (ix2 ρ0 k)) :
    k0_pay1 P0 P1 P2 (ix2 r q) = G T C R (ix2 ρ0 q) := by
  rw [pay_apply]
  have hd : dEntry P0 P1 P2 r = Softmin.dist T C R ρ0 := by
    funext k
    unfold dEntry Softmin.dist
    rw [h0, h1 k, h2 k]
  rw [hd]
  rfl

/-- WHAT POINT `t` WRITES BACK is block `t` of `G` of the three window arrays. -/
theorem flushed_eq (c : Dev nD) (t : Fin cfg0.N) :
    (dats m 0 c).flushed 3 t = ((cfg0.win 3).blk t).view.read (Elt Ideal) (G (gramArr m c) (colArr m c) (rowArr m c)) := by
  rw [flushed3]
  unfold out0_3
  rw [View.canon_unit_zero hz]
  simp only [View.ld_unit_zero (S := S200x1) hz, View.ld_unit_zero (S := S1x10000) hz, View.ld_unit_zero (S := S200x10000) hz]
  obtain ⟨e0, e1, e2, e3, e4, e5, e6, e7⟩ := idx_facts t
  funext j
  have hj0 : (j 0).val < 200 := (j 0).isLt
  have hj1 : (j 1).val < 10000 := (j 1).isLt
  have hρ : win0_3.index t (0 : Fin 2) * 200 + (j 0).val < 10000 := by omega
  have hj : j = ix2 (⟨(j 0).val, hj0⟩ : Fin 200) (⟨(j 1).val, hj1⟩ : Fin 10000) :=
    funext fun a => Fin.ext (by match a with | ⟨0, _⟩ => rfl | ⟨1, _⟩ => rfl)
  have hemb : ((cfg0.win 3).blk t).view.emb j
      = ix2 (⟨win0_3.index t (0 : Fin 2) * 200 + (j 0).val, hρ⟩ : Fin 10000) (⟨(j 1).val, hj1⟩ : Fin 10000) :=
    funext fun a => Fin.ext (by
      match a with
      | ⟨0, _⟩ => show win0_3.index t (0 : Fin 2) * 200 + 1 * (j 0).val = win0_3.index t (0 : Fin 2) * 200 + (j 0).val; omega
      | ⟨1, _⟩ => show win0_3.index t (1 : Fin 2) * 10000 + 1 * (j 1).val = (j 1).val; omega)
  show k0_pay1 (iblk m c 1 t) (iblk m c 2 t) (iblk m c 0 t) j
    = G (gramArr m c) (colArr m c) (rowArr m c) (((cfg0.win 3).blk t).view.emb j)
  refine (congrArg (k0_pay1 (iblk m c 1 t) (iblk m c 2 t) (iblk m c 0 t)) hj).trans ?_
  refine Eq.trans ?_ (congrArg (G (gramArr m c) (colArr m c) (rowArr m c)) hemb.symm)
  refine pay_eq_G (gramArr m c) (colArr m c) (rowArr m c) (iblk m c 1 t) (iblk m c 2 t) (iblk m c 0 t)
    ⟨win0_3.index t (0 : Fin 2) * 200 + (j 0).val, hρ⟩ ⟨(j 0).val, hj0⟩ ⟨(j 1).val, hj1⟩ ?_ ?_ ?_
  · show V m c main_v8 (((cfg0.win 1).blk t).view.emb (ix2 (⟨(j 0).val, hj0⟩ : Fin 200) (0 : Fin 1)))
      = V m c main_v8 (ix2 (⟨win0_3.index t (0 : Fin 2) * 200 + (j 0).val, hρ⟩ : Fin 10000) (0 : Fin 1))
    refine congrArg _ (funext fun a => Fin.ext ?_)
    match a with
    | ⟨0, _⟩ => show win0_1.index t (0 : Fin 2) * 200 + 1 * (j 0).val = win0_3.index t (0 : Fin 2) * 200 + (j 0).val; omega
    | ⟨1, _⟩ => show win0_1.index t (1 : Fin 2) * 1 + 1 * 0 = 0; omega
  · intro k
    show V m c main_v9 (((cfg0.win 2).blk t).view.emb (ix2 (0 : Fin 1) k)) = V m c main_v9 (ix2 (0 : Fin 1) k)
    refine congrArg _ (funext fun a => Fin.ext ?_)
    match a with
    | ⟨0, _⟩ => show win0_2.index t (0 : Fin 2) * 1 + 1 * 0 = 0; omega
    | ⟨1, _⟩ => show win0_2.index t (1 : Fin 2) * 10000 + 1 * k.val = k.val; omega
  · intro k
    show V m c main_v7 (((cfg0.win 0).blk t).view.emb (ix2 (⟨(j 0).val, hj0⟩ : Fin 200) k))
      = V m c main_v7 (ix2 (⟨win0_3.index t (0 : Fin 2) * 200 + (j 0).val, hρ⟩ : Fin 10000) k)
    refine congrArg _ (funext fun a => Fin.ext ?_)
    match a with
    | ⟨0, _⟩ => show win0_0.index t (0 : Fin 2) * 200 + 1 * (j 0).val = win0_3.index t (0 : Fin 2) * 200 + (j 0).val; omega
    | ⟨1, _⟩ => show win0_0.index t (1 : Fin 2) * 10000 + 1 * k.val = k.val; omega

/-- An index of the array is in point `t`'s block iff each coordinate is in the block's range on its axis. -/
theorem mem_blk (t : Fin cfg0.N) (i : S10000x10000.Idx) :
    i ∈ ((cfg0.win 3).blk t).view.set ↔ ∀ a : Fin 2, win0_3.index t a * S200x10000.size a ≤ (i a).val ∧ (i a).val < win0_3.index t a * S200x10000.size a + S200x10000.size a := by
  show i ∈ ((View.whole main_v10).slice (win0_3.rect t)).set ↔ _
  rw [View.set_slice_whole, Rect.mem_set_unit]
  exact Iff.rfl

/-- The 50 row blocks cover the array: row `ρ` is in the block of the point whose row block is `ρ / 200`. -/
theorem cover (i : S10000x10000.Idx) :
    ∃ t : Fin cfg0.N, (cfg0.win 3).flush t = true ∧ i ∈ ((cfg0.win 3).blk t).view.set := by
  have hi0 : (i 0).val < 10000 := (i 0).isLt
  have hi1 : (i 1).val < 10000 := (i 1).isLt
  obtain ⟨t, ht⟩ := idx_onto ⟨(i 0).val / 200, by omega⟩
  have q0 : win0_3.index t (0 : Fin 2) = (i 0).val / 200 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 200 ≤ (i 0).val ∧ (i 0).val < win0_3.index t (0 : Fin 2) * 200 + 200; omega
  | ⟨1, _⟩ => show win0_3.index t (1 : Fin 2) * 10000 ≤ (i 1).val ∧ (i 1).val < win0_3.index t (1 : Fin 2) * 10000 + 10000; omega

/-- THE RESULT ARRAY after the run is `G` of the Gram matrix and the squared norms, as terms of the arguments. -/
theorem final (c : Dev nD) :
    (dats m 0 c).arrAt 3 cfg0.N = G (gramK (m ((c : Thread nD τ).loc main_arg0)) (m ((c : Thread nD τ).loc main_arg1)) (m ((c : Thread nD τ).loc main_arg2)) (m ((c : Thread nD τ).loc main_arg3))) (colK (m ((c : Thread nD τ).loc main_arg0)) (m ((c : Thread nD τ).loc main_arg1)) (m ((c : Thread nD τ).loc main_arg2)) (m ((c : Thread nD τ).loc main_arg3))) (rowK (m ((c : Thread nD τ).loc main_arg0)) (m ((c : Thread nD τ).loc main_arg1)) (m ((c : Thread nD τ).loc main_arg2)) (m ((c : Thread nD τ).loc main_arg3))) := by
  rw [← gramArr_eq m c, ← colArr_eq m c, ← rowArr_eq m c]
  exact (dats m 0 c).arrAt_eq_of_cover 3 (G (gramArr m c) (colArr m c) (rowArr m c)) (fun t _ => flushed_eq m c t) cover

/-! ## The run, read -/

/-- Every weakly fair execution of the kernel's @main ends with the result array at `G` of the host terms of the
    arguments, the arguments unchanged. -/
theorem run : θ_run defs (onTc (τ := τ) (main (F := Ideal))) ⟨m, fun _ => 0, ρ⟩ fun r => ∀ c : Dev nD,
      r.2.mem ((c : Thread nD τ).loc main_v10) = G (gramK (m ((c : Thread nD τ).loc main_arg0)) (m ((c : Thread nD τ).loc main_arg1)) (m ((c : Thread nD τ).loc main_arg2)) (m ((c : Thread nD τ).loc main_arg3))) (colK (m ((c : Thread nD τ).loc main_arg0)) (m ((c : Thread nD τ).loc main_arg1)) (m ((c : Thread nD τ).loc main_arg2)) (m ((c : Thread nD τ).loc main_arg3))) (rowK (m ((c : Thread nD τ).loc main_arg0)) (m ((c : Thread nD τ).loc main_arg1)) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.KValue

end
-- ==== Proof.RefValue.lean ====
/-
  The reference, read index by index: its result array is the softmin `Cert.Softmin.G` of three of its own
  intermediate arrays — the Gram matrix `E · Eᵀ` (stage 13), the squared row norms as a column (stage 7)
  and as a row (stage 8).

  Row `r`, column `q`. The reference forms `d r q = max (sq r + sq q - 2 · T r q) 0` (stages 9–17), negates it
  (18), takes each row's maximum from `-∞` over the 10000 columns (19; this is the one stage read here from
  the reduction's definition, as a fold over the column coordinate), takes the maximum with `-∞` once more
  (20–21), subtracts it from the negated entry and exponentiates (22–25), sums each row from `0` (26), divides
  (27–29) and adds the constant (30–31). That is the left side of `Cert.Softmin.row_of_neg_max` with
  `d := dist T C R r`.
-/
import proofs.«107648_g1030792151698_week1_w1_993_11_alg».proof.Proof.Gen.ReferenceIdeal.Read
import proofs.«107648_g1030792151698_week1_w1_993_11_alg».proof.Proof.Softmin
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx Cert.Softmin

variable (x0 : (⟨S10000x10000, .f32⟩ : BufTy).Contents (Elt Ideal)) (x1 : (⟨S10000x128, .f32⟩ : BufTy).Contents (Elt Ideal))
  (x2 : (⟨S128x64, .f32⟩ : BufTy).Contents (Elt Ideal)) (x3 : (⟨S64x32, .f32⟩ : BufTy).Contents (Elt Ideal))

/-- The reference's Gram matrix `E · Eᵀ`. -/
abbrev gram : (⟨2, ![10000, 10000]⟩ : Shape).Idx → EReal := val_main_v13 (F := Ideal) x0 x1 x2 x3
/-- The squared row norms as a column. -/
abbrev normCol : (⟨2, ![10000, 1]⟩ : Shape).Idx → EReal := val_main_v7 (F := Ideal) x0 x1 x2 x3
/-- The squared row norms as a row. -/
abbrev normRow : (⟨2, ![1, 10000]⟩ : Shape).Idx → EReal := val_main_v8 (F := Ideal) x0 x1 x2 x3

/-- Stage 17 at row `r`, column `q` is the relu'd squared distance `dist` of the three arrays. -/
theorem relu_dist_apply (r q : Fin 10000) :
    val_main_v17 (F := Ideal) x0 x1 x2 x3 (ix2 r q)
      = dist (gram x0 x1 x2 x3) (normCol x0 x1 x2 x3) (normRow x0 x1 x2 x3) r q := by
  have e9 : idx_main_v9 (ix2 r q) = ix2 r 0 :=
    funext fun a => Fin.ext (by match a with | ⟨0, _⟩ => rfl | ⟨1, _⟩ => rfl)
  have e10 : idx_main_v10 (ix2 r q) = ix2 0 q :=
    funext fun a => Fin.ext (by match a with | ⟨0, _⟩ => rfl | ⟨1, _⟩ => rfl)
  rw [val_main_v17_apply, val_main_v16_apply, val_main_v11_apply, val_main_v9_apply, val_main_v10_apply, val_main_v15_apply,
    val_main_v14_apply, val_main_cst_0_apply, val_main_call1_v0_apply, val_main_call1_cst_apply, e9, e10]
  rfl

/-- The column coordinate `k` inserted into row index `r` is the array index `(r, k)`. -/
theorem lift_row (h : S10000x10000.Reduces [1] S10000) (r k : Fin 10000) : h.lift (ix1 r) k = ix2 r k :=
  funext fun a => Fin.ext (by match a with | ⟨0, _⟩ => rfl | ⟨1, _⟩ => rfl)

/-- Stage 18 (the negation) at the index the row-maximum reads for column `k`. -/
theorem neg_entry (h : S10000x10000.Reduces [1] S10000) (r k : Fin 10000) :
    val_main_v18 (F := Ideal) x0 x1 x2 x3 (h.lift (ix1 r) k)
      = -dist (gram x0 x1 x2 x3) (normCol x0 x1 x2 x3) (normRow x0 x1 x2 x3) r k := by
  rw [lift_row h r k, val_main_v18_apply, relu_dist_apply]
  rfl

/-- Stage 21 at row `r`: the maximum with `-∞` of the running maximum from `-∞` of the negated distances of
    the row. -/
theorem neg_row_max_apply (r : Fin 10000) :
    val_main_v21 (F := Ideal) x0 x1 x2 x3 (ix1 r)
      = max ⊥ (Finset.univ.fold max ⊥ fun k : Fin 10000 =>
          -dist (gram x0 x1 x2 x3) (normCol x0 x1 x2 x3) (normRow x0 x1 x2 x3) r k) := by
  have hred : S10000x10000.Reduces [1] S10000 := by decide
  rw [val_main_v21_apply, val_main_v20_apply, val_main_cst_2_apply]
  unfold val_main_v19
  rw [Host.reduce_eq_fold_single FloatOps.maximumf _ _ reducesTo_S10000x10000_S10000_d1 hred h_S_ (ix1 r)]
  have hsrc : (val_main_v18 (F := Ideal) x0 x1 x2 x3 ∘ hred.lift (ix1 r))
      = fun k : Fin 10000 => -dist (gram x0 x1 x2 x3) (normCol x0 x1 x2 x3) (normRow x0 x1 x2 x3) r k := by
    funext k
    exact neg_entry x0 x1 x2 x3 hred r k
  rw [hsrc, val_main_cst_1_apply]
  show max (Ideal.ofBits .f32 0xFF800000#32) (Finset.univ.fold max (Ideal.ofBits .f32 0xFF800000#32) _) = _
  rw [ofBits_negInf]
  rfl

/-- Stage 25 at `(r, q)`: the negated distance shifted by the row's maximum, exponentiated. -/
theorem exp_apply (r q : Fin 10000) :
    val_main_v25 (F := Ideal) x0 x1 x2 x3 (ix2 r q)
      = Ideal.exp (-dist (gram x0 x1 x2 x3) (normCol x0 x1 x2 x3) (normRow x0 x1 x2 x3) r q
          - max ⊥ (Finset.univ.fold max ⊥ fun k : Fin 10000 =>
              -dist (gram x0 x1 x2 x3) (normCol x0 x1 x2 x3) (normRow x0 x1 x2 x3) r k)) := by
  have e23 : idx_main_v22 (idx_main_v23 (ix2 r q)) = ix1 r :=
    funext fun a => Fin.ext (by match a with | ⟨0, _⟩ => rfl)
  rw [val_main_v25_apply, val_main_v24_apply, val_main_v18_apply, val_main_v23_apply, val_main_v22_apply, e23,
    neg_row_max_apply, relu_dist_apply]
  rfl

/-- Stage 26 at row `r`: the row's sum of those, from `0`. -/
theorem sum_apply (r : Fin 10000) :
    val_main_v26 (F := Ideal) x0 x1 x2 x3 (ix1 r)
      = 0 + ∑ j : Fin 10000, Ideal.exp (-dist (gram x0 x1 x2 x3) (normCol x0 x1 x2 x3) (normRow x0 x1 x2 x3) r j
          - max ⊥ (Finset.univ.fold max ⊥ fun k : Fin 10000 =>
              -dist (gram x0 x1 x2 x3) (normCol x0 x1 x2 x3) (normRow x0 x1 x2 x3) r k)) := by
  rw [val_main_v26_apply, val_main_cst_3_apply]
  refine congrArg₂ (· + ·) Ideal.ofBits_zero_f32 (Finset.sum_congr rfl fun j _ => ?_)
  have e26 : idx_main_v26 (ix1 r) j = ix2 r j :=
    funext fun a => Fin.ext (by match a with | ⟨0, _⟩ => rfl | ⟨1, _⟩ => rfl)
  rw [e26, exp_apply]

/-- THE REFERENCE'S RESULT is the softmin of its Gram matrix and its two spellings of the squared norms. -/
theorem result_eq :
    val_main_v31 (F := Ideal) x0 x1 x2 x3 = G (gram x0 x1 x2 x3) (normCol x0 x1 x2 x3) (normRow x0 x1 x2 x3) := by
  funext i
  obtain ⟨r, q, rfl⟩ : ∃ (r q : Fin 10000), i = ix2 r q := ⟨i 0, i 1, eq_ix2 i⟩
  have e28 : idx_main_v27 (idx_main_v28 (ix2 r q)) = ix1 r :=
    funext fun a => Fin.ext (by match a with | ⟨0, _⟩ => rfl)
  rw [val_main_v31_apply, val_main_v29_apply, val_main_v30_apply, val_main_cst_4_apply, val_main_v28_apply, val_main_v27_apply,
    e28, exp_apply, sum_apply]
  exact row_of_neg_max (Ideal.ofBits .f32 0x2EDBE6FF#32)
    (dist (gram x0 x1 x2 x3) (normCol x0 x1 x2 x3) (normRow x0 x1 x2 x3) r) q

end Cert.ReferenceIdeal.RefValue

end
-- ==== Proof.lean ====
/-
  The certificate: the Pallas kernel (a fused "relu'd pairwise squared distance, then row softmin" over a
  10000 × 10000 Gram matrix, 50 row blocks of 200 rows) against its jnp reference
  `softmax (-relu (sq[:, None] + sq[None, :] - 2 · E · Eᵀ), axis = 1) + 1e-10`, equal as extended reals.

  Both programs compute the embedding `E = A · (relu (A · (X · W1)) · W2)` and its squared row norms `sq` by the same
  host operations. They differ in two places. The Gram matrix: the kernel's program contracts `E` with itself over the
  embedding axis of both operands, the reference transposes `E` and contracts with the transpose — entry `(a, b)` is
  `∑ k, E a k · E b k` either way (`gram_agree`). The softmin: the kernel shifts the distances by the row MINIMUM,
  `exp (min - d)`, the reference shifts the negated distances by their row MAXIMUM, `exp (-d - max (-d))` — equal on all
  extended reals because negation reverses the order and addition commutes (`Cert.Softmin.row_of_neg_max`); no
  finiteness of the inputs is needed, so the precondition is never opened. The idealized kernel is the kernel's own text
  read over the extended reals (no operation of it was rewritten), so `preserves` has no conjunct.
-/
import proofs.«107648_g1030792151698_week1_w1_993_11_alg».proof.Defs
import proofs.«107648_g1030792151698_week1_w1_993_11_alg».proof.Proof.Gen.Kernel
import proofs.«107648_g1030792151698_week1_w1_993_11_alg».proof.Proof.Gen.Kernel.Frame
import proofs.«107648_g1030792151698_week1_w1_993_11_alg».proof.Proof.Gen.KernelIdeal
import proofs.«107648_g1030792151698_week1_w1_993_11_alg».proof.Proof.Gen.KernelIdeal.Frame
import proofs.«107648_g1030792151698_week1_w1_993_11_alg».proof.Proof.Gen.ReferenceIdeal
import proofs.«107648_g1030792151698_week1_w1_993_11_alg».proof.Proof.Gen.Pre_finite_inputs
import proofs.«107648_g1030792151698_week1_w1_993_11_alg».proof.Proof.Gen.ReferenceIdeal.Run
import proofs.«107648_g1030792151698_week1_w1_993_11_alg».proof.Proof.Gen.ReferenceIdeal.Read
import proofs.«107648_g1030792151698_week1_w1_993_11_alg».proof.Proof.KernelValue
import proofs.«107648_g1030792151698_week1_w1_993_11_alg».proof.Proof.RefValue

noncomputable section

namespace Cert.Proof

open Idealize.ShloMosaic Idealize.ShloMosaic.TcCoe Idealize.SL.Sem Idealize.ShloMosaic.ValueIdx Cert.Softmin

/-! ## The two programs' host stages are the same arrays -/

section Stages

variable (x0 : (⟨Cert.ReferenceIdeal.S10000x10000, .f32⟩ : BufTy).Contents (Elt Ideal))
  (x1 : (⟨Cert.ReferenceIdeal.S10000x128, .f32⟩ : BufTy).Contents (Elt Ideal))
  (x2 : (⟨Cert.ReferenceIdeal.S128x64, .f32⟩ : BufTy).Contents (Elt Ideal))
  (x3 : (⟨Cert.ReferenceIdeal.S64x32, .f32⟩ : BufTy).Contents (Elt Ideal))

/-- The embedding: the same four contractions and relu in both programs. -/
theorem emb_agree : Cert.KernelIdeal.KValue.emb x0 x1 x2 x3 = Cert.ReferenceIdeal.Read.val_main_v4 (F := Ideal) x0 x1 x2 x3 := rfl

/-- The squared norms as a column: the same sum of squares and broadcast in both programs. -/
theorem col_agree : Cert.KernelIdeal.KValue.colK x0 x1 x2 x3 = Cert.ReferenceIdeal.RefValue.normCol x0 x1 x2 x3 := rfl

/-- The squared norms as a row likewise. -/
theorem row_agree : Cert.KernelIdeal.KValue.rowK x0 x1 x2 x3 = Cert.ReferenceIdeal.RefValue.normRow x0 x1 x2 x3 := rfl

/-- The Gram matrix: contracting `E` with itself over the embedding axis, or with its transpose, both give
    `∑ k, E a k · E b k` at `(a, b)`. -/
theorem gram_agree : Cert.KernelIdeal.KValue.gramK x0 x1 x2 x3 = Cert.ReferenceIdeal.RefValue.gram x0 x1 x2 x3 := by
  funext i
  refine (Cert.KernelIdeal.KValue.gram_apply (Cert.KernelIdeal.KValue.emb x0 x1 x2 x3) i).trans ?_
  refine Eq.trans ?_ (Cert.ReferenceIdeal.Read.val_main_v13_apply x0 x1 x2 x3 i).symm
  refine Finset.sum_congr rfl fun k _ => ?_
  have el : (ix2 (i 0) k : Cert.ReferenceIdeal.S10000x32.Idx) = Cert.ReferenceIdeal.Read.lidx_main_v13 i k :=
    funext fun a => Fin.ext (by match a with | ⟨0, _⟩ => rfl | ⟨1, _⟩ => rfl)
  have er : (ix2 (i 1) k : Cert.ReferenceIdeal.S10000x32.Idx)
      = Cert.ReferenceIdeal.Read.idx_main_v12 (Cert.ReferenceIdeal.Read.ridx_main_v13 i k) :=
    funext fun a => Fin.ext (by match a with | ⟨0, _⟩ => rfl | ⟨1, _⟩ => rfl)
  rw [Cert.ReferenceIdeal.Read.val_main_v12_apply, emb_agree, el, er]

/-- So the softmin of the kernel's three arrays is the softmin of the reference's. -/
theorem stages_agree :
    G (Cert.KernelIdeal.KValue.gramK x0 x1 x2 x3) (Cert.KernelIdeal.KValue.colK x0 x1 x2 x3) (Cert.KernelIdeal.KValue.rowK x0 x1 x2 x3)
      = G (Cert.ReferenceIdeal.RefValue.gram x0 x1 x2 x3) (Cert.ReferenceIdeal.RefValue.normCol x0 x1 x2 x3)
          (Cert.ReferenceIdeal.RefValue.normRow x0 x1 x2 x3) := by
  rw [gram_agree, col_agree, row_agree]

end Stages

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text, no operation rewritten: there is no rewrite to justify. -/
theorem preserves : Cert.preserves_Kernel_KernelIdeal := trivial

/-- At `Ideal` the kernel's result array ends at the softmin of its Gram matrix and squared norms
    (`KValue.run`), the reference's at the softmin of its own (`RefValue.result_eq` over its run); from arguments
    that agree these are one array (`stages_agree`). -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.result_eq,
    (hagree c).1, (hagree c).2.1, (hagree c).2.2.1, (hagree c).2.2.2]
  exact (stages_agree _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
